-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1000 : Shape := ⟨2, ![131072, 1000]⟩
abbrev S131072 : Shape := ⟨1, ![131072]⟩
abbrev S1000x1000 : Shape := ⟨2, ![1000, 1000]⟩
abbrev S_ : Shape := ⟨0, ![]⟩

class Facts : Prop where
  bcast_S_S131072x1000 : S_.BroadcastsInDim S131072x1000 (![] : Fin 0 → Fin S131072x1000.rank)
  reducesTo_S131072x1000_S_d0_1 : S131072x1000.ReducesTo [0, 1] S_
  h_S_ : 0 < S_.numel
  bcast_S_S1000x1000 : S_.BroadcastsInDim S1000x1000 (![] : Fin 0 → Fin S1000x1000.rank)
  reducesTo_S1000x1000_S_d0_1 : S1000x1000.ReducesTo [0, 1] S_

variable [Facts]

def fn {F : FTy → Type} [FloatOps F] (main_arg0 : FVec F S131072x1000 .f32) (main_arg1 : IVec S131072 32) (main_arg2 : FVec F S1000x1000 .f32) : IVec S_ 1 :=
  let main_v0 : FVec F S131072x1000 .f32 := Host.absf main_arg0
  let main_cst : FVec F S_ .f32 := constant S_ .f32 0x7F800000#32
  let main_v1 : FVec F S131072x1000 .f32 := broadcastInDim S131072x1000 ![] bcast_S_S131072x1000 main_cst
  let main_v2 : IVec S131072x1000 1 := cmpf .olt main_v0 main_v1
  let main_c : IVec S_ 1 := constantI S_ 1 1#1
  let main_v3 : IVec S_ 1 := (fun x v => Host.reduce IntOp.andi x v reducesTo_S131072x1000_S_d0_1 h_S_) main_v2 main_c
  let main_v4 : FVec F S1000x1000 .f32 := Host.absf main_arg2
  let main_cst_0 : FVec F S_ .f32 := constant S_ .f32 0x7F800000#32
  let main_v5 : FVec F S1000x1000 .f32 := broadcastInDim S1000x1000 ![] bcast_S_S1000x1000 main_cst_0
  let main_v6 : IVec S1000x1000 1 := cmpf .olt main_v4 main_v5
  let main_c_1 : IVec S_ 1 := constantI S_ 1 1#1
  let main_v7 : IVec S_ 1 := (fun x v => Host.reduce IntOp.andi x v reducesTo_S1000x1000_S_d0_1 h_S_) main_v6 main_c_1
  let main_v8 : IVec S_ 1 := andi main_v3 main_v7
  main_v8
-- ==== Kernel.lean ====
abbrev S131072x1000 : Shape := ⟨2, ![131072, 1000]⟩
abbrev S131072 : Shape := ⟨1, ![131072]⟩
abbrev S1000x1000 : Shape := ⟨2, ![1000, 1000]⟩
abbrev S131072x1 : Shape := ⟨2, ![131072, 1]⟩
abbrev S2x1000x1000 : Shape := ⟨3, ![2, 1000, 1000]⟩
abbrev S2048x1000 : Shape := ⟨2, ![2048, 1000]⟩
abbrev S2048x1 : Shape := ⟨2, ![2048, 1]⟩
abbrev S1x1000x1000 : Shape := ⟨3, ![1, 1000, 1000]⟩
abbrev S1x1000 : Shape := ⟨2, ![1, 1000]⟩
abbrev S_ : Shape := ⟨0, ![]⟩
abbrev S1000 : Shape := ⟨1, ![1000]⟩
abbrev S1000x1 : Shape := ⟨2, ![1000, 1]⟩

abbrev nBuf : Space → Nat
  | .hbm => 35
  | .vmem => 6
  | .smem => 0
  | _ => 0

abbrev bufTy : (tb : Table) → Fin (tcTables nBuf tb) → BufTy
  | .hbm, ⟨0, _⟩ => ⟨S131072x1000, .f32⟩
  | .hbm, ⟨1, _⟩ => ⟨S131072, .i32⟩
  | .hbm, ⟨2, _⟩ => ⟨S1000x1000, .f32⟩
  | .hbm, ⟨3, _⟩ => ⟨S131072x1, .i32⟩
  | .hbm, ⟨4, _⟩ => ⟨S2x1000x1000, .f32⟩
  | .hbm, ⟨5, _⟩ => ⟨S1x1000x1000, .f32⟩
  | .hbm, ⟨6, _⟩ => ⟨S1000x1000, .f32⟩
  | .hbm, ⟨7, _⟩ => ⟨S1x1000x1000, .f32⟩
  | .hbm, ⟨8, _⟩ => ⟨S1000x1000, .f32⟩
  | .hbm, ⟨9, _⟩ => ⟨S1000x1000, .f32⟩
  | .hbm, ⟨10, _⟩ => ⟨S_, .f32⟩
  | .hbm, ⟨11, _⟩ => ⟨S131072, .f32⟩
  | .hbm, ⟨12, _⟩ => ⟨S_, .f32⟩
  | .hbm, ⟨13, _⟩ => ⟨S1000, .f32⟩
  | .hbm, ⟨14, _⟩ => ⟨S131072x1, .i32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .i1⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S1000x1, .f32⟩
  | .hbm, ⟨23, _⟩ => ⟨S1000x1000, .f32⟩
  | .hbm, ⟨24, _⟩ => ⟨S1000x1000, .f32⟩
  | .hbm, ⟨25, _⟩ => ⟨S1000x1, .i1⟩
  | .hbm, ⟨26, _⟩ => ⟨S_, .f32⟩
  | .hbm, ⟨27, _⟩ => ⟨S1000x1000, .f32⟩
  | .hbm, ⟨28, _⟩ => ⟨S1000x1000, .f32⟩
  | .hbm, ⟨29, _⟩ => ⟨S_, .f32⟩
  | .hbm, ⟨30, _⟩ => ⟨S1000x1000, .f32⟩
  | .hbm, ⟨31, _⟩ => ⟨S1000x1000, .f32⟩
  | .hbm, ⟨32, _⟩ => ⟨S1000x1000, .f32⟩
  | .hbm, ⟨33, _⟩ => ⟨S1000x1000, .i1⟩
  | .hbm, ⟨34, _⟩ => ⟨S1000x1000, .f32⟩
  | .local _ .vmem, ⟨0, _⟩ => ⟨S2048x1000, .f32⟩
  | .local _ .vmem, ⟨1, _⟩ => ⟨S2048x1000, .f32⟩
  | .local _ .vmem, ⟨2, _⟩ => ⟨S2048x1, .i32⟩
  | .local _ .vmem, ⟨3, _⟩ => ⟨S2048x1, .i32⟩
  | .local _ .vmem, ⟨4, _⟩ => ⟨S1x1000x1000, .f32⟩
  | .local _ .vmem, ⟨5, _⟩ => ⟨S1000x1000, .f32⟩
  | _, _ => ⟨S131072x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call1_v0 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v20 : BitVec 1 := Scalar.cmpi .eq arg1 c31_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1000x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

class Facts₀ : Prop where
  shapeCasts_S131072_S131072x1 : S131072.ShapeCasts S131072x1
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  iota_S1x1000_d1_w32 : S1x1000.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1000 : S2048x1.Broadcasts S2048x1000
  broadcasts_S1x1000_S2048x1000 : S1x1000.Broadcasts S2048x1000
  natLt_1_32 : 1 < 32
  bitsLt_bf16_f32 : FTy.bits .bf16 < FTy.bits .f32
  inb_S2048x1000_S2048x1000_0_0 : ∀ a, (![0, 0] : Fin 2 → Nat) a + S2048x1000.size a ≤ S2048x1000.size a
  h_S2048x1000 : 0 < S2048x1000.numel
  inb_S1x1000x1000_S1x1000x1000_0_0_0 : ∀ a, (![0, 0, 0] : Fin 3 → Nat) a + S1x1000x1000.size a ≤ S1x1000x1000.size a
  h_S1x1000x1000 : 0 < S1x1000x1000.numel
  shapeCasts_S1x1000x1000_S1000x1000 : S1x1000x1000.ShapeCasts S1000x1000
  shapeCasts_S1000x1000_S1x1000x1000 : S1000x1000.ShapeCasts S1x1000x1000
  slices_S2x1000x1000_S1x1000x1000_0_0_0 : S2x1000x1000.Slices ![0, 0, 0] S1x1000x1000
  slices_S2x1000x1000_S1x1000x1000_1_0_0 : S2x1000x1000.Slices ![1, 0, 0] S1x1000x1000
  bcast_S_S131072 : S_.BroadcastsInDim S131072 (![] : Fin 0 → Fin S131072.rank)
  bcast_S_S1000 : S_.BroadcastsInDim S1000 (![] : Fin 0 → Fin S1000.rank)
  bcast_S131072_S131072x1_0 : S131072.BroadcastsInDim S131072x1 (![0] : Fin 1 → Fin S131072x1.rank)
  bcast_S1000_S1000x1_0 : S1000.BroadcastsInDim S1000x1 (![0] : Fin 1 → Fin S1000x1.rank)
  bcast_S1000x1_S1000x1000_0_1 : S1000x1.BroadcastsInDim S1000x1000 (![0, 1] : Fin 2 → Fin S1000x1000.rank)
  bcast_S_S1000x1000 : S_.BroadcastsInDim S1000x1000 (![] : Fin 0 → Fin S1000x1000.rank)
  dot_S2048x1000_S2048x1000_S1000x1000_0_0_1_1_n_n_wf : DotDims.WF S2048x1000 S2048x1000 S1000x1000 [0] [0] [1] [1] [] []
  scatter_S1000_S131072x1_S131072_n_0_0_1_wf : ScatterDims.WF S1000 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1000.size a ≤ S131072x1000.size a
  hwx0_0 : ∀ i : grid0.Coords, EltTy.bits .f32 = 32 ∨ (Rect.block (s := S131072x1000) S2048x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000x1000.size a ≤ S2x1000x1000.size a
  hwx0_2 : ∀ i : grid0.Coords, EltTy.bits .f32 = 32 ∨ (Rect.block (s := S2x1000x1000) S1x1000x1000.size (cc0_transform_2 i) (hinb0_2 i)).WholeWords (EltTy.packing .f32)

variable [Facts₀]

def dot_S2048x1000_S2048x1000_S1000x1000_0_0_1_1_n_n : DotDims S2048x1000 S2048x1000 S1000x1000 where
  lhsContracting := [0]
  rhsContracting := [0]
  lhsNonContracting := [1]
  rhsNonContracting := [1]
  lhsBatch := []
  rhsBatch := []
  wf := dot_S2048x1000_S2048x1000_S1000x1000_0_0_1_1_n_n_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf

abbrev win0_0 : Pipeline.Window sig grid0 :=
  Pipeline.Window.ofSpec (Memref.whole main_arg0) S2048x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1000x1000.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x1000 : Shape := ⟨2, ![131072, 1000]⟩
abbrev S131072 : Shape := ⟨1, ![131072]⟩
abbrev S1000x1000 : Shape := ⟨2, ![1000, 1000]⟩
abbrev S_ : Shape := ⟨0, ![]⟩
abbrev S131072x1 : Shape := ⟨2, ![131072, 1]⟩
abbrev S1000 : Shape := ⟨1, ![1000]⟩
abbrev S1000x1 : Shape := ⟨2, ![1000, 1]⟩

abbrev nBuf : Space → Nat
  | .hbm => 32
  | .vmem => 0
  | .smem => 0
  | _ => 0

abbrev bufTy : (tb : Table) → Fin (tcTables nBuf tb) → BufTy
  | .hbm, ⟨0, _⟩ => ⟨S131072x1000, .f32⟩
  | .hbm, ⟨1, _⟩ => ⟨S131072, .i32⟩
  | .hbm, ⟨2, _⟩ => ⟨S1000x1000, .f32⟩
  | .hbm, ⟨3, _⟩ => ⟨S_, .f32⟩
  | .hbm, ⟨4, _⟩ => ⟨S1000x1000, .f32⟩
  | .hbm, ⟨5, _⟩ => ⟨S131072x1, .i32⟩
  | .hbm, ⟨6, _⟩ => ⟨S1000x1000, .f32⟩
  | .hbm, ⟨7, _⟩ => ⟨S_, .f32⟩
  | .hbm, ⟨8, _⟩ => ⟨S131072, .f32⟩
  | .hbm, ⟨9, _⟩ => ⟨S_, .f32⟩
  | .hbm, ⟨10, _⟩ => ⟨S1000, .f32⟩
  | .hbm, ⟨11, _⟩ => ⟨S131072x1, .i32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .i1⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S1000x1, .f32⟩
  | .hbm, ⟨20, _⟩ => ⟨S1000x1000, .f32⟩
  | .hbm, ⟨21, _⟩ => ⟨S1000x1000, .f32⟩
  | .hbm, ⟨22, _⟩ => ⟨S1000x1, .i1⟩
  | .hbm, ⟨23, _⟩ => ⟨S_, .f32⟩
  | .hbm, ⟨24, _⟩ => ⟨S1000x1000, .f32⟩
  | .hbm, ⟨25, _⟩ => ⟨S1000x1000, .f32⟩
  | .hbm, ⟨26, _⟩ => ⟨S_, .f32⟩
  | .hbm, ⟨27, _⟩ => ⟨S1000x1000, .f32⟩
  | .hbm, ⟨28, _⟩ => ⟨S1000x1000, .f32⟩
  | .hbm, ⟨29, _⟩ => ⟨S1000x1000, .f32⟩
  | .hbm, ⟨30, _⟩ => ⟨S1000x1000, .i1⟩
  | .hbm, ⟨31, _⟩ => ⟨S1000x1000, .f32⟩
  | _, _ => ⟨S131072x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S1000x1000 : S_.BroadcastsInDim S1000x1000 (![] : Fin 0 → Fin S1000x1000.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x1000_0_1 : S1000x1.BroadcastsInDim S1000x1000 (![0, 1] : Fin 2 → Fin S1000x1000.rank)
  scatter_S1000x1000_S131072x1_S131072x1000_1_0_0_1_wf : ScatterDims.WF S1000x1000 S131072x1 S131072x1000 [1] [0] [0] 1
  scatter_S1000_S131072x1_S131072_n_0_0_1_wf : ScatterDims.WF S1000 S131072x1 S131072 [] [0] [0] 1

variable [Facts₀]

def scatter_S1000x1000_S131072x1_S131072x1000_1_0_0_1 : ScatterDims S1000x1000 S131072x1 S131072x1000 where
  updateWindowDims := [1]
  insertedWindowDims := [0]
  scatterDimsToOperandDims := [0]
  indexVectorDim := 1
  wf := scatter_S1000x1000_S131072x1_S131072x1000_1_0_0_1_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf

class Facts : Prop extends Facts₀ where

variable [Facts]
-- ==== Proof.SegSum.lean ====
/-
  Per-class sums of rows selected by an integer label: the mathematics the two programs share.

  For labels `lab : [131072] → i32`, rows `P : [131072, 1000] → EReal` and a class `a < 1000`, the class's sum at column
  `b` is `∑ r, hot (lab r) a * P (r, b)`, where `hot w a` is `1` when the word `w` is the number `a` and `0` otherwise.
  A label outside `[0, 1000)` is no class's number, so its row is dropped. The sum is stated over a range of rows
  (`rows`), so that it can be split into consecutive stretches: a stretch of 2048 rows is one block's contribution,
  thirty-two blocks are one half of the rows, and the two halves are all of them.
-/
import Idealize.ShloMosaic.PureOps.Ideal
import Idealize.ShloMosaic.PureOps.Ideal.Laws
import Idealize.ShloMosaic.Lib.ValueIdx

noncomputable section

namespace Cert.SegSum

open Idealize.ShloMosaic Idealize.ShloMosaic.ValueIdx

/-- The labels' shape, the rows' shape and the result's shape. -/
abbrev SN : Shape := ⟨1, ![131072]⟩
abbrev SP : Shape := ⟨2, ![131072, 1000]⟩
abbrev SO : Shape := ⟨2, ![1000, 1000]⟩

/-- The weight of a row labelled `w` in class `a`: one when `w` is the number `a`, zero otherwise. -/
def hot (w : BitVec 32) (a : Fin 1000) : EReal := if w = BitVec.ofNat 32 a.val then 1 else 0

/-- Row `r`'s contribution to class `a` at column `b` (zero past the last row). -/
def term (lab : SN.Idx → BitVec 32) (P : SP.Idx → EReal) (a b : Fin 1000) (r : ℕ) : EReal :=
  if h : r < 131072 then hot (lab (ix1 ⟨r, h⟩)) a * P (ix2 ⟨r, h⟩ b) else 0

/-- The contributions of the rows `lo ≤ r < hi`. -/
def rows (lab : SN.Idx → BitVec 32) (P : SP.Idx → EReal) (a b : Fin 1000) (lo hi : ℕ) : EReal :=
  ∑ r ∈ Finset.Ico lo hi, term lab P a b r

/-- The class sum over all rows. -/
def segSum (lab : SN.Idx → BitVec 32) (P : SP.Idx → EReal) (a b : Fin 1000) : EReal :=
  ∑ r : Fin 131072, hot (lab (ix1 r)) a * P (ix2 r b)

/-- The class sums as an array. -/
def classSums (lab : SN.Idx → BitVec 32) (P : SP.Idx → EReal) : SO.Idx → EReal := fun i => segSum lab P (i 0) (i 1)

variable (lab : SN.Idx → BitVec 32) (P : SP.Idx → EReal) (a b : Fin 1000)

theorem classSums_apply : classSums lab P (ix2 a b) = segSum lab P a b := rfl

/-- An empty stretch contributes nothing. -/
theorem rows_self (lo : ℕ) : rows lab P a b lo lo = 0 := by
  unfold rows; rw [Finset.Ico_self, Finset.sum_empty]

/-- Consecutive stretches add. -/
theorem rows_split {lo mid hi : ℕ} (h₁ : lo ≤ mid) (h₂ : mid ≤ hi) :
    rows lab P a b lo mid + rows lab P a b mid hi = rows lab P a b lo hi := by
  unfold rows; exact Finset.sum_Ico_consecutive _ h₁ h₂

/-- A stretch of `n` rows from `lo` on, summed over the position inside the stretch. -/
theorem rows_block (lo n : ℕ) :
    rows lab P a b lo (lo + n) = ∑ k : Fin n, term lab P a b (lo + k.val) := by
  unfold rows
  rw [Finset.sum_Ico_eq_sum_range, Nat.add_sub_cancel_left, Fin.sum_univ_eq_sum_range (fun k => term lab P a b (lo + k)) n]

/-- All the rows: the class sum. -/
theorem rows_all : rows lab P a b 0 131072 = segSum lab P a b := by
  have h := rows_block lab P a b 0 131072
  rw [Nat.zero_add] at h
  rw [h]
  unfold segSum
  refine Finset.sum_congr rfl fun r _ => ?_
  unfold term
  rw [Nat.zero_add, dif_pos r.isLt]

end Cert.SegSum

end
-- ==== Proof.RefScatter.lean ====
/-
  The reference's scatter-add read at an index.

  The scatter adds row `r` of the updates into row `label r` of the result: update entry `(r, b')` lands on `(a, b)`
  exactly when the label of `r`, read as a signed integer, is `a`, and `b' = b`; a label outside `[0, 1000)` lands
  nowhere and is dropped. So the updates landing on `(a, b)` sum to `∑ r, hot (label r) a * P (r, b)`.
-/
import proofs.«408978_j17016660426754_3_alg».proof.Proof.Gen.ReferenceIdeal
import proofs.«408978_j17016660426754_3_alg».proof.Proof.SegSum
import Idealize.ShloMosaic.PureOps.Ideal
import Idealize.ShloMosaic.PureOps.Ideal.Laws
import Idealize.ShloMosaic.Lib.ValueIdx
import Idealize.ShloMosaic.Lib.Pipeline.Value

noncomputable section
namespace Cert.ReferenceIdeal.RefValue
open Idealize.ShloMosaic Idealize.ShloMosaic.ValueIdx Cert.ReferenceIdeal Cert.ReferenceIdeal.Gen Cert.SegSum

/-- The start index and the window coordinate of update `(r, b')` on the result's two axes. -/
theorem start0 (idx : IVec S131072x1 32) (r : Fin 131072) (b' : Fin 1000) :
    scatter_S1000x1000_S131072x1_S131072x1000_1_0_0_1.start (ix2 r b') idx 0 = (idx (ix2 r 0)).toInt := by
  unfold ScatterDims.start
  rw [dif_pos (by decide)]
  congr 2
  funext b
  match b with
  | ⟨0, _⟩ => rfl
  | ⟨1, _⟩ => rfl

theorem start1 (idx : IVec S131072x1 32) (r : Fin 131072) (b' : Fin 1000) :
    scatter_S1000x1000_S131072x1_S131072x1000_1_0_0_1.start (ix2 r b') idx 1 = 0 := by
  unfold ScatterDims.start
  rw [dif_neg (by decide)]

theorem window0 (r : Fin 131072) (b' : Fin 1000) :
    scatter_S1000x1000_S131072x1_S131072x1000_1_0_0_1.window (ix2 r b') 0 = 0 := by
  unfold ScatterDims.window
  rw [dif_neg (by decide)]

theorem window1 (r : Fin 131072) (b' : Fin 1000) :
    scatter_S1000x1000_S131072x1_S131072x1000_1_0_0_1.window (ix2 r b') 1 = b'.val := by
  unfold ScatterDims.window
  rw [dif_pos (by decide)]
  rfl

/-- Where an update lands. -/
theorem resultIdx_iff (idx : IVec S131072x1 32) (r : Fin 131072) (b' a b : Fin 1000) :
    scatter_S1000x1000_S131072x1_S131072x1000_1_0_0_1.resultIdx? (ix2 r b') idx = some (ix2 a b)
      ↔ (idx (ix2 r 0)).toInt = (a.val : ℤ) ∧ b'.val = b.val := by
  unfold ScatterDims.resultIdx?
  have hb1 : b'.val < 1000 := b'.isLt
  have ha : a.val < 1000 := a.isLt
  constructor
  · intro h
    split at h
    · rename_i hall
      have e := Option.some.inj h
      have e0 : (scatter_S1000x1000_S131072x1_S131072x1000_1_0_0_1.start (ix2 r b') idx 0
          + scatter_S1000x1000_S131072x1_S131072x1000_1_0_0_1.window (ix2 r b') 0).toNat = a.val :=
        congrArg (fun f : S1000x1000.Idx => (f 0).val) e
      have e1 : (scatter_S1000x1000_S131072x1_S131072x1000_1_0_0_1.start (ix2 r b') idx 1
          + scatter_S1000x1000_S131072x1_S131072x1000_1_0_0_1.window (ix2 r b') 1).toNat = b.val :=
        congrArg (fun f : S1000x1000.Idx => (f 1).val) e
      rw [start0, window0] at e0
      rw [start1, window1] at e1
      have h0 := (hall 0).1
      rw [start0, window0] at h0
      constructor
      · omega
      · omega
    · exact absurd h (by simp)
  · rintro ⟨h0, h1⟩
    have hall : ∀ a', 0 ≤ scatter_S1000x1000_S131072x1_S131072x1000_1_0_0_1.start (ix2 r b') idx a' + scatter_S1000x1000_S131072x1_S131072x1000_1_0_0_1.window (ix2 r b') a'
        ∧ scatter_S1000x1000_S131072x1_S131072x1000_1_0_0_1.start (ix2 r b') idx a' + scatter_S1000x1000_S131072x1_S131072x1000_1_0_0_1.window (ix2 r b') a' < S1000x1000.size a' := by
      refine Fin.forall_fin_two.mpr ⟨?_, ?_⟩
      · rw [start0, window0, h0]; show 0 ≤ (a.val : ℤ) + ((0 : ℕ) : ℤ) ∧ (a.val : ℤ) + ((0 : ℕ) : ℤ) < ((1000 : ℕ) : ℤ); omega
      · rw [start1, window1]; show 0 ≤ (0 : ℤ) + (b'.val : ℤ) ∧ (0 : ℤ) + (b'.val : ℤ) < ((1000 : ℕ) : ℤ); omega
    rw [dif_pos hall]
    congr 1
    funext a'
    revert a'
    refine Fin.forall_fin_two.mpr ⟨Fin.ext ?_, Fin.ext ?_⟩
    · show (scatter_S1000x1000_S131072x1_S131072x1000_1_0_0_1.start (ix2 r b') idx 0 + scatter_S1000x1000_S131072x1_S131072x1000_1_0_0_1.window (ix2 r b') 0).toNat = a.val
      rw [start0, window0, h0]; omega
    · show (scatter_S1000x1000_S131072x1_S131072x1000_1_0_0_1.start (ix2 r b') idx 1 + scatter_S1000x1000_S131072x1_S131072x1000_1_0_0_1.window (ix2 r b') 1).toNat = b.val
      rw [start1, window1]; omega

/-- A small number's word, read signed, is the number. -/
theorem toInt_ofNat_small (a : Fin 1000) : (BitVec.ofNat 32 a.val).toInt = (a.val : ℤ) := by
  have h := a.isLt
  rw [BitVec.toInt_eq_toNat_cond, BitVec.toNat_ofNat, Nat.mod_eq_of_lt (by omega)]
  split <;> omega

/-- A label, read signed, is the class `a` exactly when its word is `a`'s. -/
theorem toInt_eq_iff (w : BitVec 32) (a : Fin 1000) : w.toInt = (a.val : ℤ) ↔ w = BitVec.ofNat 32 a.val := by
  rw [← toInt_ofNat_small a]
  exact BitVec.toInt_inj

/-- The updates that land on `(a, b)` are the rows labelled `a`, at column `b`. -/
theorem scatter_sum (idx : IVec S131072x1 32) (P : S131072x1000.Idx → EReal) (a b : Fin 1000) :
    ∑ j ∈ Finset.univ.filter (fun j => scatter_S1000x1000_S131072x1_S131072x1000_1_0_0_1.resultIdx? j idx = some (ix2 a b)), P j
      = ∑ r : Fin 131072, hot (idx (ix2 r 0)) a * P (ix2 r b) := by
  rw [Finset.sum_filter, sum_idx2]
  refine Finset.sum_congr rfl fun r _ => ?_
  by_cases hl : (idx (ix2 r 0)).toInt = (a.val : ℤ)
  · have hw : hot (idx (ix2 r 0)) a = 1 := by unfold hot; rw [if_pos ((toInt_eq_iff _ _).mp hl)]
    rw [hw, one_mul]
    rw [Finset.sum_eq_single b]
    · rw [if_pos ((resultIdx_iff idx r b a b).mpr ⟨hl, rfl⟩)]
    · intro b' _ hne
      rw [if_neg fun h => hne (Fin.ext ((resultIdx_iff idx r b' a b).mp h).2)]
    · intro h; exact absurd (Finset.mem_univ b) h
  · have hw : hot (idx (ix2 r 0)) a = 0 := by unfold hot; rw [if_neg fun h => hl ((toInt_eq_iff _ _).mpr h)]
    rw [hw, zero_mul]
    exact Finset.sum_eq_zero fun b' _ => if_neg fun h => hl ((resultIdx_iff idx r b' a b).mp h).1

end Cert.ReferenceIdeal.RefValue
end
-- ==== Proof.RefValue.lean ====
/-
  The reference's result as "the shared closing arithmetic of the class sums".

  Both programs end alike: count the rows of each class (a scatter-add of ones), divide each class's sums by its count
  (by one where the class is empty), and move `val` a tenth of the way to the means where the class is not empty,
  leaving it where it is. `tail` is that arithmetic as ONE function of the sums, the labels and `val`, at any float
  values; it is never opened. The reference feeds it its scatter-add of the rows, which at every `(a, b)` is the class sum `segSum`.
-/
import proofs.«408978_j17016660426754_3_alg».proof.Proof.RefScatter
import proofs.«408978_j17016660426754_3_alg».proof.Proof.SegSum
import Idealize.ShloMosaic.PureOps.Ideal
import Idealize.ShloMosaic.PureOps.Ideal.Laws
import Idealize.ShloMosaic.Lib.ValueIdx
import Idealize.ShloMosaic.Lib.Pipeline.Value

noncomputable section
namespace Cert.ReferenceIdeal.RefValue
open Idealize.ShloMosaic Idealize.ShloMosaic.ValueIdx Cert.ReferenceIdeal Cert.ReferenceIdeal.Gen Cert.SegSum

/-- The closing arithmetic: from the class sums, the labels and `val` to the result. -/
def tail {F : FTy → Type} [FloatOps F] (sums : FVec F S1000x1000 .f32) (x1 : IVec S131072 32) (x2 : FVec F S1000x1000 .f32) : FVec F S1000x1000 .f32 :=
  select (broadcastInDim S1000x1000 ![0, 1] bcast_S1000x1_S1000x1000_0_1 (broadcastInDim S1000x1 ![0] bcast_S1000_S1000x1_0 (cmpf (F := F) .ogt (Host.scatterAdd (F := F) scatter_S1000_S131072x1_S131072_n_0_0_1 (broadcastInDim S1000 ![] bcast_S_S1000 (constant (F := F) S_ .f32 0x00000000#32)) (broadcastInDim S131072x1 ![0] bcast_S131072_S131072x1_0 x1) (broadcastInDim S131072 ![] bcast_S_S131072 (constant (F := F) S_ .f32 0x3F800000#32))) (broadcastInDim S1000 ![] bcast_S_S1000 (constant (F := F) S_ .f32 0x00000000#32)))))
    (addf (mulf (broadcastInDim S1000x1000 ![] bcast_S_S1000x1000 (constant (F := F) S_ .f32 0x3DCCCCCD#32))
      (Host.divf (F := F) sums
        (broadcastInDim S1000x1000 ![0, 1] bcast_S1000x1_S1000x1000_0_1 (broadcastInDim S1000x1 ![0] bcast_S1000_S1000x1_0 (select (cmpf (F := F) .ogt (Host.scatterAdd (F := F) scatter_S1000_S131072x1_S131072_n_0_0_1 (broadcastInDim S1000 ![] bcast_S_S1000 (constant (F := F) S_ .f32 0x00000000#32)) (broadcastInDim S131072x1 ![0] bcast_S131072_S131072x1_0 x1) (broadcastInDim S131072 ![] bcast_S_S131072 (constant (F := F) S_ .f32 0x3F800000#32))) (broadcastInDim S1000 ![] bcast_S_S1000 (constant (F := F) S_ .f32 0x00000000#32))) (Host.scatterAdd (F := F) scatter_S1000_S131072x1_S131072_n_0_0_1 (broadcastInDim S1000 ![] bcast_S_S1000 (constant (F := F) S_ .f32 0x00000000#32)) (broadcastInDim S131072x1 ![0] bcast_S131072_S131072x1_0 x1) (broadcastInDim S131072 ![] bcast_S_S131072 (constant (F := F) S_ .f32 0x3F800000#32))) (broadcastInDim S1000 ![] bcast_S_S1000 (constant (F := F) S_ .f32 0x3F800000#32)))))))
      (mulf (broadcastInDim S1000x1000 ![] bcast_S_S1000x1000 (constant (F := F) S_ .f32 0x3F666666#32)) x2))
    x2

/-- The reference's scatter-add of the rows into zeros, at `(a, b)`: the class sum. -/
theorem scatter_eq (x0 : FVec Ideal S131072x1000 .f32) (x1 : IVec S131072 32) (a b : Fin 1000) :
    Host.scatterAdd (F := Ideal) scatter_S1000x1000_S131072x1_S131072x1000_1_0_0_1 (broadcastInDim S1000x1000 ![] bcast_S_S1000x1000 (constant (F := Ideal) S_ .f32 0x00000000#32)) (broadcastInDim S131072x1 ![0] bcast_S131072_S131072x1_0 x1) x0 (ix2 a b)
      = segSum x1 x0 a b := by
  show Ideal.hostScatterAdd _ _ _ _ (ix2 a b) = _
  unfold Ideal.hostScatterAdd
  rw [scatter_sum]
  have hz : broadcastInDim S1000x1000 ![] bcast_S_S1000x1000 (constant (F := Ideal) S_ .f32 0x00000000#32) (ix2 a b) = 0 := by
    rw [broadcastInDim_apply _ bcast_S_S1000x1000 _ (ix2 a b) ix0 (fun d => d.elim0)]
    exact Ideal.ofBits_zero_f32
  rw [hz, zero_add]
  unfold segSum
  refine Finset.sum_congr rfl fun r _ => ?_
  congr 2
  exact broadcastInDim_apply _ bcast_S131072_S131072x1_0 x1 (ix2 r 0) (ix1 r) (fun d => match d with
    | ⟨0, _⟩ => by show r.val = if (131072 : Nat) = 1 then 0 else r.val; rw [if_neg (by decide)])

/-- The reference's result term is the closing arithmetic of its scatter-add of the rows, at any float values: the same
    operations in the same order. -/
theorem result_tail {F : FTy → Type} [FloatOps F] (x0 : FVec F S131072x1000 .f32) (x1 : IVec S131072 32) (x2 : FVec F S1000x1000 .f32) :
    select (broadcastInDim S1000x1000 ![0, 1] bcast_S1000x1_S1000x1000_0_1 (broadcastInDim S1000x1 ![0] bcast_S1000_S1000x1_0 (cmpf (F := F) .ogt (Host.scatterAdd (F := F) scatter_S1000_S131072x1_S131072_n_0_0_1 (broadcastInDim S1000 ![] bcast_S_S1000 (constant (F := F) S_ .f32 0x00000000#32)) (broadcastInDim S131072x1 ![0] bcast_S131072_S131072x1_0 x1) (broadcastInDim S131072 ![] bcast_S_S131072 (constant (F := F) S_ .f32 0x3F800000#32))) (broadcastInDim S1000 ![] bcast_S_S1000 (constant (F := F) S_ .f32 0x00000000#32))))) (addf (mulf (broadcastInDim S1000x1000 ![] bcast_S_S1000x1000 (constant (F := F) S_ .f32 0x3DCCCCCD#32)) (Host.divf (F := F) (Host.scatterAdd (F := F) scatter_S1000x1000_S131072x1_S131072x1000_1_0_0_1 (broadcastInDim S1000x1000 ![] bcast_S_S1000x1000 (constant (F := F) S_ .f32 0x00000000#32)) (broadcastInDim S131072x1 ![0] bcast_S131072_S131072x1_0 x1) x0) (broadcastInDim S1000x1000 ![0, 1] bcast_S1000x1_S1000x1000_0_1 (broadcastInDim S1000x1 ![0] bcast_S1000_S1000x1_0 (select (cmpf (F := F) .ogt (Host.scatterAdd (F := F) scatter_S1000_S131072x1_S131072_n_0_0_1 (broadcastInDim S1000 ![] bcast_S_S1000 (constant (F := F) S_ .f32 0x00000000#32)) (broadcastInDim S131072x1 ![0] bcast_S131072_S131072x1_0 x1) (broadcastInDim S131072 ![] bcast_S_S131072 (constant (F := F) S_ .f32 0x3F800000#32))) (broadcastInDim S1000 ![] bcast_S_S1000 (constant (F := F) S_ .f32 0x00000000#32))) (Host.scatterAdd (F := F) scatter_S1000_S131072x1_S131072_n_0_0_1 (broadcastInDim S1000 ![] bcast_S_S1000 (constant (F := F) S_ .f32 0x00000000#32)) (broadcastInDim S131072x1 ![0] bcast_S131072_S131072x1_0 x1) (broadcastInDim S131072 ![] bcast_S_S131072 (constant (F := F) S_ .f32 0x3F800000#32))) (broadcastInDim S1000 ![] bcast_S_S1000 (constant (F := F) S_ .f32 0x3F800000#32))))))) (mulf (broadcastInDim S1000x1000 ![] bcast_S_S1000x1000 (constant (F := F) S_ .f32 0x3F666666#32)) x2)) x2
      = tail (F := F) (Host.scatterAdd (F := F) scatter_S1000x1000_S131072x1_S131072x1000_1_0_0_1 (broadcastInDim S1000x1000 ![] bcast_S_S1000x1000 (constant (F := F) S_ .f32 0x00000000#32)) (broadcastInDim S131072x1 ![0] bcast_S131072_S131072x1_0 x1) x0) x1 x2 := rfl

/-- Over the extended reals that scatter-add is the array of class sums. -/
theorem result_eq (x0 : FVec Ideal S131072x1000 .f32) (x1 : IVec S131072 32) (x2 : FVec Ideal S1000x1000 .f32) :
    tail (F := Ideal) (Host.scatterAdd (F := Ideal) scatter_S1000x1000_S131072x1_S131072x1000_1_0_0_1 (broadcastInDim S1000x1000 ![] bcast_S_S1000x1000 (constant (F := Ideal) S_ .f32 0x00000000#32)) (broadcastInDim S131072x1 ![0] bcast_S131072_S131072x1_0 x1) x0) x1 x2
      = tail (F := Ideal) (classSums x1 x0) x1 x2 := by
  refine congrArg (fun s => tail (F := Ideal) s x1 x2) (funext fun i => ?_)
  obtain ⟨a, b, rfl⟩ : ∃ (a b : Fin 1000), i = ix2 a b := ⟨i 0, i 1, eq_ix2 i⟩
  exact scatter_eq x0 x1 a b

end Cert.ReferenceIdeal.RefValue
end
-- ==== Proof.KernelPieces.lean ====
/-
  What one run of the kernel body leaves behind, case by case, as terms of the body's three payloads.

  The body keeps a [1000, 1000] scratch of class sums. At the first row block of a half it zeroes the scratch (payload 1)
  and then stores "scratch + transposed one-hot block times row block" (payload 2) read from the zeroed scratch; at every
  later block it stores payload 2 read from what the block before left; at the last block of a half it also copies the
  scratch, under a leading unit axis (payload 3), into the output block. Each store covers its whole buffer, so what a
  buffer holds after the body is the last store's payload, and a load after a covering store reads that store's payload.
-/
import proofs.«408978_j17016660426754_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen

variable {F : FTy → Type} [FloatOps F]

/-- Zero offsets, as the printed rectangles spell them. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle block: the scratch ends at payload 2 of the block's labels, the block's rows and what the scratch held. -/
theorem sout_B (c : Dev nD) (i : grid0.Coords) (a2 : Memref sig .tc .vmem S2048x1000 .f32) (h2 : a2.IsWhole)
    (a3 : Memref sig .tc .vmem S2048x1 .i32) (h3 : a3.IsWhole) (a4 : Memref sig .tc .vmem S1x1000x1000 .f32) (h4 : a4.IsWhole)
    (a5 : Memref sig .tc .vmem S1000x1000 .f32) (h5 : a5.IsWhole) (hc0 : ¬cond0_0 i) (hc1 : ¬cond0_1 i)
    (x0 : Vec F S2048x1000 .f32) (x1 : Vec F S2048x1 .i32) (xs0 : Vec F S1000x1000 .f32) :
    sout0_B_0 c i a2 h2 a3 h3 a4 h4 a5 h5 hc0 hc1 x0 x1 xs0 = k0_pay2 x1 x0 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S2048x1000) hz2, View.ld_unit_zero (S := S2048x1) hz2, View.ld_unit_zero (S := S1000x1000) hz2]

/-- The first block of a half: the scratch ends at payload 2 read from the zeroed scratch (payload 1). -/
theorem sout_A (c : Dev nD) (i : grid0.Coords) (a2 : Memref sig .tc .vmem S2048x1000 .f32) (h2 : a2.IsWhole)
    (a3 : Memref sig .tc .vmem S2048x1 .i32) (h3 : a3.IsWhole) (a4 : Memref sig .tc .vmem S1x1000x1000 .f32) (h4 : a4.IsWhole)
    (a5 : Memref sig .tc .vmem S1000x1000 .f32) (h5 : a5.IsWhole) (hc0 : cond0_0 i) (hc1 : ¬cond0_1 i)
    (x0 : Vec F S2048x1000 .f32) (x1 : Vec F S2048x1 .i32) :
    sout0_A_0 c i a2 h2 a3 h3 a4 h4 a5 h5 hc0 hc1 x0 x1 = k0_pay2 x1 x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1000x1000) hz2, View.readCov_unit_zero (S := S1000x1000) _ hz2]
  simp only [View.readAt_eq_ld, h2.read_unread, h3.read_unread, h5.read_unread, View.ld_unit_zero (S := S2048x1000) hz2, View.ld_unit_zero (S := S2048x1) hz2, View.ld_unit_zero (S := S1000x1000) hz2]

/-- The last block of a half: the scratch ends as at a middle block, -/
theorem sout_C (c : Dev nD) (i : grid0.Coords) (a2 : Memref sig .tc .vmem S2048x1000 .f32) (h2 : a2.IsWhole)
    (a3 : Memref sig .tc .vmem S2048x1 .i32) (h3 : a3.IsWhole) (a4 : Memref sig .tc .vmem S1x1000x1000 .f32) (h4 : a4.IsWhole)
    (a5 : Memref sig .tc .vmem S1000x1000 .f32) (h5 : a5.IsWhole) (hc0 : ¬cond0_0 i) (hc1 : cond0_1 i)
    (x0 : Vec F S2048x1000 .f32) (x1 : Vec F S2048x1 .i32) (xs0 : Vec F S1000x1000 .f32) :
    sout0_C_0 c i a2 h2 a3 h3 a4 h4 a5 h5 hc0 hc1 x0 x1 xs0 = k0_pay2 x1 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S2048x1000) hz2, View.ld_unit_zero (S := S2048x1) hz2, View.ld_unit_zero (S := S1000x1000) hz2]

/-- and the output block ends at payload 3 of that scratch. -/
theorem out_C (c : Dev nD) (i : grid0.Coords) (a2 : Memref sig .tc .vmem S2048x1000 .f32) (h2 : a2.IsWhole)
    (a3 : Memref sig .tc .vmem S2048x1 .i32) (h3 : a3.IsWhole) (a4 : Memref sig .tc .vmem S1x1000x1000 .f32) (h4 : a4.IsWhole)
    (a5 : Memref sig .tc .vmem S1000x1000 .f32) (h5 : a5.IsWhole) (hc0 : ¬cond0_0 i) (hc1 : cond0_1 i)
    (x0 : Vec F S2048x1000 .f32) (x1 : Vec F S2048x1 .i32) (xs0 : Vec F S1000x1000 .f32) :
    out0_C_2 c i a2 h2 a3 h3 a4 h4 a5 h5 hc0 hc1 x0 x1 xs0 = k0_pay3 (k0_pay2 x1 x0 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S2048x1000) hz2, View.ld_unit_zero (S := S2048x1) hz2, View.ld_unit_zero (S := S1000x1000) hz2, View.readCov_unit_zero (S := S1000x1000) _ hz2]

end Cert.KernelIdeal.SegValue

end
-- ==== Proof.KernelPay.lean ====
/-
  The body's payloads read at an index, over the extended reals.

  Payload 2 at `(a, b)` is the scratch's entry plus `∑ k < 2048, hot (label k) a * row k b`: the one-hot entry
  `(label k == a)` widened and converted is the weight `hot` (one or zero), the change of float format is the identity,
  and the matrix product contracts the block's row axis of both operands into a zero accumulator. Payload 1 is zero;
  payload 3 is the scratch under a leading unit axis.
-/
import proofs.«408978_j17016660426754_3_alg».proof.Proof.Gen.KernelIdeal.Skeleton
import proofs.«408978_j17016660426754_3_alg».proof.Proof.SegSum
import Idealize.ShloMosaic.Lib.Pipeline.Value
import Idealize.ShloMosaic.PureOps.Ideal.Laws
import Idealize.ShloMosaic.Lib.ValueIdx

noncomputable section

open Idealize.ShloMosaic Idealize.ShloMosaic.TcCoe Idealize.SL.Sem

namespace Cert.KernelIdeal.SegValue

open Cert.KernelIdeal Cert.KernelIdeal.Gen Idealize.ShloMosaic.ValueIdx Cert.SegSum

/-- The body's one-hot entry: the comparison bit, widened and converted, is the weight `hot`. -/
theorem hot_eq (w : BitVec 32) (a : Fin 1000) :
    FloatOps.sitofp (F := Ideal) .f32 ((IntOp.cmpi .eq w (BitVec.ofNat 32 a.val)).setWidth 32) = hot w a := by
  unfold hot
  show (((((IntOp.cmpi .eq w (BitVec.ofNat 32 a.val)).setWidth 32).toInt : ℝ)) : EReal) = _
  by_cases h : w = BitVec.ofNat 32 a.val
  · rw [if_pos h, ← h]
    have e : IntOp.cmpi .eq w w = 1#1 := by simp [IntOp.cmpi]
    rw [e]
    have e2 : ((1#1 : BitVec 1).setWidth 32).toInt = 1 := by decide
    rw [e2]; simp
  · rw [if_neg h]
    have e : IntOp.cmpi .eq w (BitVec.ofNat 32 a.val) = 0#1 := by
      show BitVec.ofBool (w == BitVec.ofNat 32 a.val) = 0#1
      rw [beq_eq_false_iff_ne.mpr h]; rfl
    rw [e]
    have e2 : ((0#1 : BitVec 1).setWidth 32).toInt = 0 := by decide
    rw [e2]; simp

/-- The product's operand indices at output `j` and contraction position `k`: both operands are read at row `k`;
    the left at column `j 0`, the right at column `j 1`. -/
theorem lhs_0 (j : S1000x1000.Idx) (k : dot_S2048x1000_S2048x1000_S1000x1000_0_0_1_1_n_n.contr.Idx) :
    (dot_S2048x1000_S2048x1000_S1000x1000_0_0_1_1_n_n.lhsIdx j k 0).val = (k ⟨0, by decide⟩).val :=
  DotDims.lhsIdx_val_of_single _ rfl j k
theorem lhs_1 (j : S1000x1000.Idx) (k : dot_S2048x1000_S2048x1000_S1000x1000_0_0_1_1_n_n.contr.Idx) :
    (dot_S2048x1000_S2048x1000_S1000x1000_0_0_1_1_n_n.lhsIdx j k 1).val = (j 0).val := by
  unfold DotDims.lhsIdx
  rw [dif_neg (show ¬(1 : Fin S2048x1000.rank) ∈ dot_S2048x1000_S2048x1000_S1000x1000_0_0_1_1_n_n.lhsBatch by decide),
    dif_pos (show (1 : Fin S2048x1000.rank) ∈ dot_S2048x1000_S2048x1000_S1000x1000_0_0_1_1_n_n.lhsNonContracting by decide)]
  rfl
theorem rhs_0 (j : S1000x1000.Idx) (k : dot_S2048x1000_S2048x1000_S1000x1000_0_0_1_1_n_n.contr.Idx) :
    (dot_S2048x1000_S2048x1000_S1000x1000_0_0_1_1_n_n.rhsIdx j k 0).val = (k ⟨0, by decide⟩).val :=
  DotDims.rhsIdx_val_of_single _ rfl j k
theorem rhs_1 (j : S1000x1000.Idx) (k : dot_S2048x1000_S2048x1000_S1000x1000_0_0_1_1_n_n.contr.Idx) :
    (dot_S2048x1000_S2048x1000_S1000x1000_0_0_1_1_n_n.rhsIdx j k 1).val = (j 1).val := by
  unfold DotDims.rhsIdx
  rw [dif_neg (show ¬(1 : Fin S2048x1000.rank) ∈ dot_S2048x1000_S2048x1000_S1000x1000_0_0_1_1_n_n.rhsBatch by decide),
    dif_pos (show (1 : Fin S2048x1000.rank) ∈ dot_S2048x1000_S2048x1000_S1000x1000_0_0_1_1_n_n.rhsNonContracting by decide)]
  rfl

/-- The product of the transposed one-hot block with the row block, into zero: at `(a, b)` the sum over the block's rows. -/
theorem matmul_rows (u v : FVec Ideal S2048x1000 .bf16) (a b : Fin 1000) :
    matmul dot_S2048x1000_S2048x1000_S1000x1000_0_0_1_1_n_n none u v (constant S1000x1000 .f32 0x00000000#32) (ix2 a b)
      = ∑ k : Fin 2048, u (ix2 k a) * v (ix2 k b) := by
  refine (Ideal.matmul_constant_zero_apply dot_S2048x1000_S2048x1000_S1000x1000_0_0_1_1_n_n none u v (ix2 a b)).trans ?_
  rw [← Equiv.sum_comp (contrEquiv1 dot_S2048x1000_S2048x1000_S1000x1000_0_0_1_1_n_n 2048 rfl rfl).symm]
  refine Finset.sum_congr rfl fun k _ => ?_
  have hk := contrEquiv1_symm_val dot_S2048x1000_S2048x1000_S1000x1000_0_0_1_1_n_n 2048 rfl rfl k
  congr 1
  · exact congrArg u (Shape.idx_ext₂ ((lhs_0 _ _).trans hk) (lhs_1 _ _))
  · exact congrArg v (Shape.idx_ext₂ ((rhs_0 _ _).trans hk) (rhs_1 _ _))

/-- The accumulating store's payload at `(a, b)`: what the scratch held there plus the block's rows of class `a` in column `b`. -/
theorem pay2_apply (v4 : Vec Ideal S2048x1 .i32) (v12 : Vec Ideal S2048x1000 .f32) (v15 : Vec Ideal S1000x1000 .f32) (a b : Fin 1000) :
    k0_pay2 (F := Ideal) v4 v12 v15 (ix2 a b) = v15 (ix2 a b) + ∑ k : Fin 2048, hot (v4 (ix2 k 0)) a * v12 (ix2 k b) := by
  unfold k0_pay2
  dsimp only
  rw [shapeCast_self]
  show v15 (ix2 a b) + _ = _
  congr 1
  refine (matmul_rows _ _ a b).trans ?_
  refine Finset.sum_congr rfl fun k _ => ?_
  congr 1
  show FloatOps.sitofp (F := Ideal) .f32 ((IntOp.cmpi .eq
      (broadcastTo S2048x1000 (shapeCast S2048x1 v4 shapeCasts_S2048x1_S2048x1) broadcasts_S2048x1_S2048x1000 (ix2 k a))
      (broadcastTo S2048x1000 (iota .tc S1x1000 32 [1] iota_S1x1000_d1_w32) broadcasts_S1x1000_S2048x1000 (ix2 k a))).setWidth 32) = _
  rw [shapeCast_self,
    broadcastTo_apply v4 broadcasts_S2048x1_S2048x1000 (ix2 k a) (ix2 k 0) (fun d => by
      match d with
      | ⟨0, _⟩ => rfl
      | ⟨1, _⟩ => rfl),
    broadcastTo_apply _ broadcasts_S1x1000_S2048x1000 (ix2 k a) (ix2 (0 : Fin 1) a) (fun d => by
      match d with
      | ⟨0, _⟩ => rfl
      | ⟨1, _⟩ => rfl),
    iota_single_apply]
  exact hot_eq _ _

/-- The reset's payload is zero. -/
theorem pay1_apply (a b : Fin 1000) : k0_pay1 (F := Ideal) (ix2 a b) = 0 := by
  unfold k0_pay1
  rw [shapeCast_self]
  exact Ideal.ofBits_zero_f32

/-- The output store's payload: the scratch under a leading unit axis. -/
theorem pay3_apply (v23 : Vec Ideal S1000x1000 .f32) (a b : Fin 1000) :
    k0_pay3 (F := Ideal) v23 (ix3 (0 : Fin 1) a b) = v23 (ix2 a b) := by
  unfold k0_pay3
  refine (shapeCast_addUnit_apply ![1000, 1000] v23 shapeCasts_S1000x1000_S1x1000x1000 (ix3 (0 : Fin 1) a b)).trans ?_
  congr 1
  funext d
  match d with
  | ⟨0, _⟩ => rfl
  | ⟨1, _⟩ => rfl

end Cert.KernelIdeal.SegValue

end
-- ==== Proof.KernelAcc.lean ====
/-
  The scratch of class sums, point by point.

  The grid is two halves of thirty-two points; point `t` reads rows `2048 t ≤ r < 2048 t + 2048` and their labels. At the
  first point of a half the scratch is reset and then receives the block's contribution; at every later point it receives
  "what it held plus the block's contribution". So after point `t` it holds, at `(a, b)`, the contributions of the rows
  from the start of `t`'s half (row `65536 (t / 32)`) to the end of `t`'s block: `rows … (65536 (t / 32)) (2048 (t + 1))`.
-/
import proofs.«408978_j17016660426754_3_alg».proof.Proof.Gen.KernelIdeal.Frame
import proofs.«408978_j17016660426754_3_alg».proof.Proof.KernelPieces
import proofs.«408978_j17016660426754_3_alg».proof.Proof.KernelPay
import proofs.«408978_j17016660426754_3_alg».proof.Proof.SegSum
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen Idealize.ShloMosaic.ValueIdx Cert.SegSum

variable (m : (ℓ : Loc nD τ sig) → Buf (Elt Ideal) ℓ) (ρ : Dev nD → PrngReg)

/-- The labels and the rows as launched. -/
abbrev lab (c : Dev nD) : SN.Idx → BitVec 32 := m ((c : Thread nD τ).loc main_arg1)
abbrev prd (c : Dev nD) : SP.Idx → EReal := m ((c : Thread nD τ).loc main_arg0)

/-- Point `t`'s block of rows and block of labels. -/
abbrev xblk (c : Dev nD) (t : Fin cfg0.N) : Vec Ideal S2048x1000 .f32 := iblk m c 0 t
abbrev lblk (c : Dev nD) (t : Fin cfg0.N) : Vec Ideal S2048x1 .i32 := iblk m c 1 t

/-- The printed index maps over the grid: the two inputs' blocks are numbered by the point itself (core `p`, step `i`:
    block `32 p + i`), the output's by the core. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 32 ∧ win0_2.index t (1 : Fin 3) = 0 ∧ win0_2.index t (2 : Fin 3) = 0 :=
  (by decide +kernel : ∀ t : Fin grid0.N, _)

theorem lt_N (t : Fin cfg0.N) : t.val < 64 := lt_of_lt_of_eq t.isLt N_0

/-- Row `k` of point `t`'s block is row `2048 t + k` of the rows. -/
theorem xblk_apply (c : Dev nD) (t : Fin cfg0.N) (k : Fin 2048) (b : Fin 1000) (h : 2048 * t.val + k.val < 131072) :
    xblk m c t (ix2 k b) = prd m c (ix2 ⟨2048 * t.val + k.val, h⟩ b) := by
  show V m c main_arg0 (((cfg0.win 0).blk t).view.emb (ix2 k b)) = _
  rw [V_main_arg0]
  refine congrArg (m ((c : Thread nD τ).loc main_arg0)) ?_
  obtain ⟨e0, e1, -⟩ := idx_facts t
  funext a; apply Fin.ext
  match a with
  | ⟨0, _⟩ => show win0_0.index t (0 : Fin 2) * 2048 + 1 * k.val = 2048 * t.val + k.val; omega
  | ⟨1, _⟩ => show win0_0.index t (1 : Fin 2) * 1000 + 1 * b.val = b.val; omega

/-- The label column the region finds is the labels under a trailing unit axis. -/
theorem V_main_v0 (c : Dev nD) :
    (V m c main_v0 : S131072x1.Idx → BitVec 32) = shapeCast S131072x1 (m ((c : Thread nD τ).loc main_arg1)) shapeCasts_S131072_S131072x1 := by
  show StableHlo.after hostOps0 (fun b => m (c, b)) (Proc.devRef .tc main_v0) = _
  after_results
  rfl

/-- Entry `k` of point `t`'s label block is label `2048 t + k`. -/
theorem lblk_apply (c : Dev nD) (t : Fin cfg0.N) (k : Fin 2048) (h : 2048 * t.val + k.val < 131072) :
    lblk m c t (ix2 k 0) = lab m c (ix1 ⟨2048 * t.val + k.val, h⟩) := by
  show V m c main_v0 (((cfg0.win 1).blk t).view.emb (ix2 k (0 : Fin 1))) = _
  refine (congrFun (V_main_v0 m c) _).trans ?_
  refine shapeCast_apply _ _ _ (ix1 ⟨2048 * t.val + k.val, h⟩) ?_
  rw [Shape.rowMajor_val_one, Shape.rowMajor_val_two]
  obtain ⟨-, -, e0, e1, -⟩ := idx_facts t
  show 2048 * t.val + k.val = (win0_1.index t (0 : Fin 2) * 2048 + 1 * k.val) * 1 + (win0_1.index t (1 : Fin 2) * 1 + 1 * 0)
  omega

/-- One block's contribution to class `a` at column `b`: the rows `2048 t ≤ r < 2048 t + 2048`. -/
theorem block_sum (c : Dev nD) (t : Fin cfg0.N) (a b : Fin 1000) :
    ∑ k : Fin 2048, hot (lblk m c t (ix2 k 0)) a * xblk m c t (ix2 k b)
      = rows (lab m c) (prd m c) a b (2048 * t.val) (2048 * t.val + 2048) := by
  rw [rows_block]
  refine Finset.sum_congr rfl fun k _ => ?_
  have ht := lt_N t
  have hk : 2048 * t.val + k.val < 131072 := by have := k.isLt; omega
  unfold term
  rw [dif_pos hk, lblk_apply m c t k hk, xblk_apply m c t k b hk]

/-- The accumulating store over what the scratch held: the held entry plus the block's contribution. -/
theorem step (c : Dev nD) (t : Fin cfg0.N) (acc : Vec Ideal S1000x1000 .f32) (a b : Fin 1000) :
    k0_pay2 (F := Ideal) (lblk m c t) (xblk m c t) acc (ix2 a b)
      = acc (ix2 a b) + rows (lab m c) (prd m c) a b (2048 * t.val) (2048 * t.val + 2048) :=
  (pay2_apply (lblk m c t) (xblk m c t) acc a b).trans (congrArg (acc (ix2 a b) + ·) (block_sum m c t a b))

/-- What the scratch holds after a point, by the point's case. -/
theorem scr_A (c : Dev nD) (t : Fin cfg0.N) (h0 : t.val % 32 = 0) (h1 : ¬t.val % 32 = 31) :
    (outsAt0 m c t.val t.isLt).2 = k0_pay2 (F := Ideal) (lblk m c t) (xblk m c t) (k0_pay1 (F := Ideal)) := by
  rw [outsAt0_A m c t h0 h1]; dsimp only
  exact sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

theorem scr_B (c : Dev nD) (t : Fin cfg0.N) (h0 : ¬t.val % 32 = 0) (h1 : ¬t.val % 32 = 31) :
    (outsAt0 m c t.val t.isLt).2 = k0_pay2 (F := Ideal) (lblk m c t) (xblk m c t) (outsAt0 m c (t.val - 1) (Nat.lt_of_le_of_lt (Nat.sub_le _ _) t.isLt)).2 := by
  rw [outsAt0_B m c t h0 h1]; dsimp only
  exact sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

theorem scr_C (c : Dev nD) (t : Fin cfg0.N) (h0 : ¬t.val % 32 = 0) (h1 : t.val % 32 = 31) :
    (outsAt0 m c t.val t.isLt).2 = k0_pay2 (F := Ideal) (lblk m c t) (xblk m c t) (outsAt0 m c (t.val - 1) (Nat.lt_of_le_of_lt (Nat.sub_le _ _) t.isLt)).2 := by
  rw [outsAt0_C m c t h0 h1]; dsimp only
  exact sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- At the last block of a half the output block is the scratch under a leading unit axis. -/
theorem out_C_eq (c : Dev nD) (t : Fin cfg0.N) (h0 : ¬t.val % 32 = 0) (h1 : t.val % 32 = 31) :
    (outsAt0 m c t.val t.isLt).1 = k0_pay3 (F := Ideal) (outsAt0 m c t.val t.isLt).2 := by
  rw [scr_C m c t h0 h1, outsAt0_C m c t h0 h1]; dsimp only
  exact out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- THE RUNNING SUM. After point `n` the scratch holds, at `(a, b)`, the contributions of the rows of `n`'s half of the
    rows up to the end of `n`'s block: by induction on the point. -/
theorem acc_eq (c : Dev nD) : ∀ (n : ℕ) (hn : n < cfg0.N) (a b : Fin 1000),
    (outsAt0 m c n hn).2 (ix2 a b) = rows (lab m c) (prd m c) a b (65536 * (n / 32)) (2048 * (n + 1)) := by
  intro n
  induction n with
  | zero =>
    intro hn a b
    refine (congrFun (scr_A m c ⟨0, hn⟩ rfl (by show ¬0 % 32 = 31; decide)) (ix2 a b)).trans ?_
    rw [step m c ⟨0, hn⟩, pay1_apply, zero_add]
    rfl
  | succ n ih =>
    intro hn a b
    have hN : n + 1 < 64 := lt_of_lt_of_eq hn N_0
    by_cases h0 : (n + 1) % 32 = 0
    · have h1 : ¬(n + 1) % 32 = 31 := by omega
      refine (congrFun (scr_A m c ⟨n + 1, hn⟩ h0 h1) (ix2 a b)).trans ?_
      rw [step m c ⟨n + 1, hn⟩, pay1_apply, zero_add]
      show rows _ _ a b (2048 * (n + 1)) (2048 * (n + 1) + 2048) = _
      rw [show 65536 * ((n + 1) / 32) = 2048 * (n + 1) from by omega, show 2048 * (n + 1 + 1) = 2048 * (n + 1) + 2048 from by omega]
    · have hprev : (outsAt0 m c n (Nat.lt_of_succ_lt hn)).2 (ix2 a b) = rows (lab m c) (prd m c) a b (65536 * ((n + 1) / 32)) (2048 * (n + 1)) := by
        rw [ih (Nat.lt_of_succ_lt hn) a b, show n / 32 = (n + 1) / 32 from by omega]
      have hsplit : rows (lab m c) (prd m c) a b (65536 * ((n + 1) / 32)) (2048 * (n + 1)) + rows (lab m c) (prd m c) a b (2048 * (n + 1)) (2048 * (n + 1) + 2048)
          = rows (lab m c) (prd m c) a b (65536 * ((n + 1) / 32)) (2048 * (n + 1 + 1)) := by
        rw [show 2048 * (n + 1 + 1) = 2048 * (n + 1) + 2048 from by omega]
        exact rows_split _ _ _ _ (by omega) (by omega)
      by_cases h1 : (n + 1) % 32 = 31
      · refine (congrFun (scr_C m c ⟨n + 1, hn⟩ h0 h1) (ix2 a b)).trans ?_
        refine (step m c ⟨n + 1, hn⟩ _ a b).trans ?_
        exact (congrArg (· + _) hprev).trans hsplit
      · refine (congrFun (scr_B m c ⟨n + 1, hn⟩ h0 h1) (ix2 a b)).trans ?_
        refine (step m c ⟨n + 1, hn⟩ _ a b).trans ?_
        exact (congrArg (· + _) hprev).trans hsplit

end Cert.KernelIdeal.SegValue

end
-- ==== Proof.KernelOut.lean ====
/-
  The kernel's output array after the run, and the host's sum of its two slices.

  Output block `p` (one per half of the rows) is written back once, after the last point of half `p`, when the scratch
  holds the contributions of all 65536 rows of that half. The two blocks tile the [2, 1000, 1000] array, so it ends
  holding `halves`: at `(p, a, b)` the rows `65536 p ≤ r < 65536 p + 65536` of class `a` at column `b`. The host then adds
  slice 0 and slice 1: two consecutive stretches that together are all the rows, the class sum.
-/
import proofs.«408978_j17016660426754_3_alg».proof.Proof.KernelAcc

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen Idealize.ShloMosaic.ValueIdx Cert.SegSum

variable (m : (ℓ : Loc nD τ sig) → Buf (Elt Ideal) ℓ) (ρ : Dev nD → PrngReg)

/-- What the output array ends holding: at `(p, a, b)` the contributions of half `p` of the rows. -/
def halves (c : Dev nD) : S2x1000x1000.Idx → EReal := fun i =>
  rows (lab m c) (prd m c) (i 1) (i 2) (65536 * (i 0).val) (65536 * (i 0).val + 65536)

theorem halves_apply (c : Dev nD) (p : Fin 2) (a b : Fin 1000) :
    halves m c (ix3 p a b) = rows (lab m c) (prd m c) a b (65536 * p.val) (65536 * p.val + 65536) := rfl

/-- The one write-back of a half, at its last point, writes that half's block of `halves`. -/
theorem flushed_eq (c : Dev nD) (t : Fin cfg0.N) (hf : (cfg0.win 2).flush t = true) :
    (dats m 0 c).flushed 2 t = ((cfg0.win 2).blk t).view.read (Elt Ideal) (halves m c) := by
  have h31 : t.val % 32 = 31 := (flush0_2 t).mp hf
  have h0 : ¬t.val % 32 = 0 := by omega
  have ht := lt_N t
  show (cfg0.win 2).cut (grid0.coords t) ((dats m 0 c).after 2 t) = _
  rw [after0_2, out_C_eq m c t h0 h31]
  refine funext fun (j : S1x1000x1000.Idx) => ?_
  obtain ⟨z, a, b, rfl⟩ : ∃ (z : Fin 1) (a b : Fin 1000), j = ix3 z a b := ⟨j 0, j 1, j 2, eq_ix3 j⟩
  obtain rfl : z = 0 := Subsingleton.elim _ _
  show k0_pay3 (F := Ideal) (outsAt0 m c t.val t.isLt).2 (ix3 0 a b) = halves m c (((cfg0.win 2).blk t).view.emb (ix3 0 a b))
  rw [pay3_apply, acc_eq m c t.val t.isLt a b]
  obtain ⟨-, -, -, -, e0, e1, e2⟩ := idx_facts t
  have E : ((cfg0.win 2).blk t).view.emb (ix3 (0 : Fin 1) a b) = ix3 (⟨t.val / 32, by omega⟩ : Fin 2) a b := by
    funext d; apply Fin.ext
    match d with
    | ⟨0, _⟩ => show win0_2.index t (0 : Fin 3) * 1 + 1 * 0 = t.val / 32; omega
    | ⟨1, _⟩ => show win0_2.index t (1 : Fin 3) * 1000 + 1 * a.val = a.val; omega
    | ⟨2, _⟩ => show win0_2.index t (2 : Fin 3) * 1000 + 1 * b.val = b.val; omega
  rw [E, halves_apply]
  show rows _ _ a b (65536 * (t.val / 32)) (2048 * (t.val + 1)) = rows _ _ a b (65536 * (t.val / 32)) (65536 * (t.val / 32) + 65536)
  rw [show 2048 * (t.val + 1) = 65536 * (t.val / 32) + 65536 from by omega]

/-- An index of the output array is in point `t`'s block iff each coordinate is in the block's range on its axis. -/
theorem mem_blk (t : Fin cfg0.N) (i : S2x1000x1000.Idx) :
    i ∈ ((cfg0.win 2).blk t).view.set ↔ ∀ a : Fin 3, win0_2.index t a * S1x1000x1000.size a ≤ (i a).val ∧ (i a).val < win0_2.index t a * S1x1000x1000.size a + S1x1000x1000.size a := by
  show i ∈ ((View.whole main_v1).slice (win0_2.rect t)).set ↔ _
  rw [View.set_slice_whole, Rect.mem_set_unit]
  exact Iff.rfl

/-- The two write-backs cover the output array: `(p, a, b)` lies in the block written at the last point of half `p`. -/
theorem cover (i : S2x1000x1000.Idx) :
    ∃ t : Fin cfg0.N, (cfg0.win 2).flush t = true ∧ i ∈ ((cfg0.win 2).blk t).view.set := by
  have hp : (i 0).val < 2 := (i 0).isLt
  have ha : (i 1).val < 1000 := (i 1).isLt
  have hb : (i 2).val < 1000 := (i 2).isLt
  have hlt : 32 * (i 0).val + 31 < cfg0.N := lt_of_lt_of_eq (by omega : 32 * (i 0).val + 31 < 64) N_0.symm
  refine ⟨⟨32 * (i 0).val + 31, hlt⟩, (flush0_2 _).mpr (by show (32 * (i 0).val + 31) % 32 = 31; omega), ?_⟩
  rw [mem_blk]
  obtain ⟨-, -, -, -, e0, e1, e2⟩ := idx_facts ⟨32 * (i 0).val + 31, hlt⟩
  have e0' : win0_2.index ⟨32 * (i 0).val + 31, hlt⟩ (0 : Fin 3) = (i 0).val := by
    rw [e0]; show (32 * (i 0).val + 31) / 32 = _; omega
  intro a
  match a with
  | ⟨0, _⟩ => show win0_2.index ⟨32 * (i 0).val + 31, hlt⟩ (0 : Fin 3) * 1 ≤ (i 0).val ∧ (i 0).val < win0_2.index ⟨32 * (i 0).val + 31, hlt⟩ (0 : Fin 3) * 1 + 1; omega
  | ⟨1, _⟩ => show win0_2.index ⟨32 * (i 0).val + 31, hlt⟩ (1 : Fin 3) * 1000 ≤ (i 1).val ∧ (i 1).val < win0_2.index ⟨32 * (i 0).val + 31, hlt⟩ (1 : Fin 3) * 1000 + 1000; omega
  | ⟨2, _⟩ => show win0_2.index ⟨32 * (i 0).val + 31, hlt⟩ (2 : Fin 3) * 1000 ≤ (i 2).val ∧ (i 2).val < win0_2.index ⟨32 * (i 0).val + 31, hlt⟩ (2 : Fin 3) * 1000 + 1000; omega

/-- So the output array ends holding the two halves' sums. -/
theorem final_out (c : Dev nD) : (dats m 0 c).arrAt 2 cfg0.N = halves m c :=
  (dats m 0 c).arrAt_eq_of_cover 2 (halves m c) (fun t hf => flushed_eq m c t hf) cover

/-- The host's sum of the two slices of the output array: at `(a, b)` the class sum over all rows. -/
theorem halves_add (c : Dev nD) :
    addf (F := Ideal) (φ := .f32) (shapeCast S1000x1000 (extractStridedSlice S1x1000x1000 ![0, 0, 0] (halves m c) slices_S2x1000x1000_S1x1000x1000_0_0_0) shapeCasts_S1x1000x1000_S1000x1000)
      (shapeCast S1000x1000 (extractStridedSlice S1x1000x1000 ![1, 0, 0] (halves m c) slices_S2x1000x1000_S1x1000x1000_1_0_0) shapeCasts_S1x1000x1000_S1000x1000)
      = classSums (lab m c) (prd m c) := by
  funext i
  obtain ⟨a, b, rfl⟩ : ∃ (a b : Fin 1000), i = ix2 a b := ⟨i 0, i 1, eq_ix2 i⟩
  rw [classSums_apply, ← rows_all, ← rows_split (lab m c) (prd m c) a b (by omega : 0 ≤ 65536) (by omega : 65536 ≤ 131072)]
  show shapeCast S1000x1000 _ _ (ix2 a b) + shapeCast S1000x1000 _ _ (ix2 a b) = _
  rw [shapeCast_dropUnit_apply ![1000, 1000] _ shapeCasts_S1x1000x1000_S1000x1000 (ix2 a b),
    shapeCast_dropUnit_apply ![1000, 1000] _ shapeCasts_S1x1000x1000_S1000x1000 (ix2 a b),
    extractStridedSlice_apply ![0, 0, 0] (halves m c) slices_S2x1000x1000_S1x1000x1000_0_0_0 _ (ix3 (0 : Fin 2) a b) (fun d => by
      match d with
      | ⟨0, _⟩ => rfl
      | ⟨1, _⟩ => show a.val = 0 + a.val; omega
      | ⟨2, _⟩ => show b.val = 0 + b.val; omega),
    extractStridedSlice_apply ![1, 0, 0] (halves m c) slices_S2x1000x1000_S1x1000x1000_1_0_0 _ (ix3 (1 : Fin 2) a b) (fun d => by
      match d with
      | ⟨0, _⟩ => rfl
      | ⟨1, _⟩ => show a.val = 0 + a.val; omega
      | ⟨2, _⟩ => show b.val = 0 + b.val; omega),
    halves_apply, halves_apply]
  rfl

end Cert.KernelIdeal.SegValue

end
-- ==== Proof.KernelTail.lean ====
/-
  The host operations after the kernel's region, read back.

  After the region the host adds the two slices of the output array and then does the closing arithmetic the reference
  does (`RefValue.tail`: counts, means, the move of `val`), on the labels and `val` as launched. Stated at any float
  values: the two programs' closing operations are the same operations in the same order, and are compared as such.
-/
import proofs.«408978_j17016660426754_3_alg».proof.Proof.Gen.KernelIdeal.Frame
import proofs.«408978_j17016660426754_3_alg».proof.Proof.RefValue
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen

variable {F : FTy → Type} [FloatOps F]
variable (m : (ℓ : Loc nD τ sig) → Buf (Elt F) ℓ)

/-- The host's sum of the two slices of an output array `A`. -/
abbrev sliceSum (A : S2x1000x1000.Idx → Elt F .f32) : FVec F S1000x1000 .f32 :=
  addf (shapeCast S1000x1000 (extractStridedSlice S1x1000x1000 ![0, 0, 0] A slices_S2x1000x1000_S1x1000x1000_0_0_0) shapeCasts_S1x1000x1000_S1000x1000)
    (shapeCast S1000x1000 (extractStridedSlice S1x1000x1000 ![1, 0, 0] A slices_S2x1000x1000_S1x1000x1000_1_0_0) shapeCasts_S1x1000x1000_S1000x1000)

/-- What the lines after the region find in the output array, the labels and `val`. -/
theorem arr_out (c : Dev nD) :
    Pipeline.withArrays (cfgs 0).spec c (V0 m c) (fun w => (dats m 0 c).arrAt w (cfgs 0).N) (Proc.devRef .tc main_v1)
      = (dats m 0 c).arrAt 2 cfg0.N :=
  Pipeline.withArrays_arr spec0 launch0.win.arr_inj c (V0 m c) _ 2
theorem arr_lab (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans (V_main_arg1 m c)
theorem arr_val (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans (V_main_arg2 m c)

set_option maxHeartbeats 4000000 in
/-- The result buffer after the lines that follow the region: the closing arithmetic of the slices' sum. -/
theorem tail_eq (c : Dev nD) :
    Pipeline.afterTail₀ cfgs (dats m) 0 (V0 m) [hostOps1, hostOps1_1, hostOps1_2, hostOps1_3] c main_v24
      = Cert.ReferenceIdeal.RefValue.tail (F := F) (sliceSum ((dats m 0 c).arrAt 2 cfg0.N)) (m ((c : Thread nD τ).loc main_arg1)) (m ((c : Thread nD τ).loc main_arg2)) := by
  unfold Pipeline.afterTail₀
  simp only [hostOps1, hostOps1_1, hostOps1_2, hostOps1_3, List.flatten_cons, List.flatten_nil, List.append_nil, List.cons_append, List.nil_append]
  after_results_simp
  simp only [StableHlo.TRef.ofBuf, StableHlo.TRef.toBuf, cast_eq]
  rw [arr_out m c, arr_lab m c, arr_val m c]
  rfl

end Cert.KernelIdeal.SegValue

end
-- ==== Proof.KernelRun.lean ====
/-
  The kernel's run over the extended reals, read: its result is the closing arithmetic of the class sums.

  The frame run leaves the output array at the two halves' sums and every other buffer as the lines after the region
  leave it; those lines add the two slices — the class sums over all rows — and apply the closing arithmetic.
-/
import proofs.«408978_j17016660426754_3_alg».proof.Proof.KernelOut
import proofs.«408978_j17016660426754_3_alg».proof.Proof.KernelTail

set_option maxRecDepth 16384

noncomputable section

open Idealize.ShloMosaic Idealize.ShloMosaic.TcCoe Idealize.SL.Sem
open Idealize.ShloMosaic.Pipeline (Dat)

namespace Cert.KernelIdeal.SegValue

open Cert.KernelIdeal Cert.KernelIdeal.Gen Idealize.ShloMosaic.ValueIdx Cert.SegSum

variable (m : (ℓ : Loc nD τ sig) → Buf (Elt Ideal) ℓ) (ρ : Dev nD → PrngReg)

/-- The result buffer after the run. -/
theorem result_eq (c : Dev nD) :
    Pipeline.afterTail₀ cfgs (dats m) 0 (V0 m) [hostOps1, hostOps1_1, hostOps1_2, hostOps1_3] c main_v24
      = Cert.ReferenceIdeal.RefValue.tail (F := Ideal) (classSums (lab m c) (prd m c)) (m ((c : Thread nD τ).loc main_arg1)) (m ((c : Thread nD τ).loc main_arg2)) := by
  refine (tail_eq m c).trans ?_
  rw [final_out m c]
  exact congrArg (fun s => Cert.ReferenceIdeal.RefValue.tail (F := Ideal) s (m ((c : Thread nD τ).loc main_arg1)) (m ((c : Thread nD τ).loc main_arg2))) (halves_add m c)

/-- Every weakly fair execution of the idealized kernel program ends with its result at the closing arithmetic of the
    class sums of the rows by label, and its arguments unchanged. -/
theorem run : θ_run defs (onTc (τ := τ) (main (F := Ideal))) ⟨m, fun _ => 0, ρ⟩ fun r => ∀ c : Dev nD,
      r.2.mem ((c : Thread nD τ).loc main_v24) = Cert.ReferenceIdeal.RefValue.tail (F := Ideal) (classSums (lab m c) (prd m c)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨
      ((h c).2 main_v24 (Pipeline.mem_restRefs_of main_v24 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.SegValue

end
-- ==== Proof.lean ====
/-
  The certificate: the kernel (a one-hot matrix product of the labels against the rows, accumulated block by block on
  two cores, then the closing arithmetic on the host) computes what the reference (a scatter-add of the rows by label,
  then the same closing arithmetic) computes, over the extended reals.

  Both class sums are `∑ r, hot (label r) a * P (r, b)`: the kernel's as thirty-two blocks of 2048 rows per half and
  two halves, the reference's as the updates that land on `(a, b)`; a label outside the classes contributes to neither.
  Sums of extended reals may be regrouped freely, so no finiteness is used. The closing arithmetic is one function of
  the sums, applied by both programs, and is never opened. The three frames are the generated frame runs (the
  reference's: its run with the result dropped); the ideal pass rewrote nothing, so `preserves` is trivial.
-/
import proofs.«408978_j17016660426754_3_alg».proof.Defs
import proofs.«408978_j17016660426754_3_alg».proof.Proof.Gen.Kernel
import proofs.«408978_j17016660426754_3_alg».proof.Proof.Gen.Kernel.Skeleton
import proofs.«408978_j17016660426754_3_alg».proof.Proof.Gen.Kernel.Launch
import proofs.«408978_j17016660426754_3_alg».proof.Proof.Gen.Kernel.Points
import proofs.«408978_j17016660426754_3_alg».proof.Proof.Gen.Kernel.Frame
import proofs.«408978_j17016660426754_3_alg».proof.Proof.Gen.KernelIdeal
import proofs.«408978_j17016660426754_3_alg».proof.Proof.Gen.KernelIdeal.Skeleton
import proofs.«408978_j17016660426754_3_alg».proof.Proof.Gen.KernelIdeal.Launch
import proofs.«408978_j17016660426754_3_alg».proof.Proof.Gen.KernelIdeal.Points
import proofs.«408978_j17016660426754_3_alg».proof.Proof.Gen.KernelIdeal.Frame
import proofs.«408978_j17016660426754_3_alg».proof.Proof.Gen.ReferenceIdeal
import proofs.«408978_j17016660426754_3_alg».proof.Proof.Gen.Pre_finite_inputs
import proofs.«408978_j17016660426754_3_alg».proof.Proof.RefRun
import proofs.«408978_j17016660426754_3_alg».proof.Proof.RefValue
import proofs.«408978_j17016660426754_3_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end at the closing arithmetic of the class sums of arguments that agree. -/
theorem algebraic : Cert.algebraic_KernelIdeal_ReferenceIdeal := by
  intro m ρ m' ρ' _ hagree
  refine ⟨_, Cert.KernelIdeal.SegValue.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  exact (Cert.ReferenceIdeal.RefValue.result_tail _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
